-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x512 : Shape := ⟨2, ![262144, 512]⟩
abbrev S1x1 : Shape := ⟨2, ![1, 1]⟩
abbrev S512x1 : Shape := ⟨2, ![512, 1]⟩
abbrev S512x64 : Shape := ⟨2, ![512, 64]⟩
abbrev S_ : Shape := ⟨0, ![]⟩

class Facts : Prop where
  bcast_S_S262144x512 : S_.BroadcastsInDim S262144x512 (![] : Fin 0 → Fin S262144x512.rank)
  reducesTo_S262144x512_S_d0_1 : S262144x512.ReducesTo [0, 1] S_
  h_S_ : 0 < S_.numel
  bcast_S_S1x1 : S_.BroadcastsInDim S1x1 (![] : Fin 0 → Fin S1x1.rank)
  reducesTo_S1x1_S_d0_1 : S1x1.ReducesTo [0, 1] S_
  bcast_S_S512x1 : S_.BroadcastsInDim S512x1 (![] : Fin 0 → Fin S512x1.rank)
  reducesTo_S512x1_S_d0_1 : S512x1.ReducesTo [0, 1] S_
  bcast_S_S512x64 : S_.BroadcastsInDim S512x64 (![] : Fin 0 → Fin S512x64.rank)
  reducesTo_S512x64_S_d0_1 : S512x64.ReducesTo [0, 1] S_

variable [Facts]

def fn_part1 {F : FTy → Type} [FloatOps F] (main_v13 : IVec S_ 1) (main_v16 : IVec S512x64 1) : IVec S_ 1 :=
  let main_c_5 : IVec S_ 1 := constantI S_ 1 1#1
  let main_v17 : IVec S_ 1 := (fun x v => Host.reduce IntOp.andi x v reducesTo_S512x64_S_d0_1 h_S_) main_v16 main_c_5
  let main_v18 : IVec S_ 1 := andi main_v13 main_v17
  main_v18

def fn {F : FTy → Type} [FloatOps F] (main_arg0 : FVec F S262144x512 .f32) (main_arg1 : FVec F S1x1 .f32) (main_arg2 : FVec F S512x1 .f32) (main_arg3 : FVec F S512x64 .f32) : IVec S_ 1 :=
  let main_v0 : FVec F S262144x512 .f32 := Host.absf main_arg0
  let main_cst : FVec F S_ .f32 := constant S_ .f32 0x7F800000#32
  let main_v1 : FVec F S262144x512 .f32 := broadcastInDim S262144x512 ![] bcast_S_S262144x512 main_cst
  let main_v2 : IVec S262144x512 1 := cmpf .olt main_v0 main_v1
  let main_c : IVec S_ 1 := constantI S_ 1 1#1
  let main_v3 : IVec S_ 1 := (fun x v => Host.reduce IntOp.andi x v reducesTo_S262144x512_S_d0_1 h_S_) main_v2 main_c
  let main_v4 : FVec F S1x1 .f32 := Host.absf main_arg1
  let main_cst_0 : FVec F S_ .f32 := constant S_ .f32 0x7F800000#32
  let main_v5 : FVec F S1x1 .f32 := broadcastInDim S1x1 ![] bcast_S_S1x1 main_cst_0
  let main_v6 : IVec S1x1 1 := cmpf .olt main_v4 main_v5
  let main_c_1 : IVec S_ 1 := constantI S_ 1 1#1
  let main_v7 : IVec S_ 1 := (fun x v => Host.reduce IntOp.andi x v reducesTo_S1x1_S_d0_1 h_S_) main_v6 main_c_1
  let main_v8 : IVec S_ 1 := andi main_v3 main_v7
  let main_v9 : FVec F S512x1 .f32 := Host.absf main_arg2
  let main_cst_2 : FVec F S_ .f32 := constant S_ .f32 0x7F800000#32
  let main_v10 : FVec F S512x1 .f32 := broadcastInDim S512x1 ![] bcast_S_S512x1 main_cst_2
  let main_v11 : IVec S512x1 1 := cmpf .olt main_v9 main_v10
  let main_c_3 : IVec S_ 1 := constantI S_ 1 1#1
  let main_v12 : IVec S_ 1 := (fun x v => Host.reduce IntOp.andi x v reducesTo_S512x1_S_d0_1 h_S_) main_v11 main_c_3
  let main_v13 : IVec S_ 1 := andi main_v8 main_v12
  let main_v14 : FVec F S512x64 .f32 := Host.absf main_arg3
  let main_cst_4 : FVec F S_ .f32 := constant S_ .f32 0x7F800000#32
  let main_v15 : FVec F S512x64 .f32 := broadcastInDim S512x64 ![] bcast_S_S512x64 main_cst_4
  let main_v16 : IVec S512x64 1 := cmpf .olt main_v14 main_v15
  fn_part1 (F := F) main_v13 main_v16
-- ==== Kernel.lean ====
abbrev S262144x512 : Shape := ⟨2, ![262144, 512]⟩
abbrev S1x1 : Shape := ⟨2, ![1, 1]⟩
abbrev S512x1 : Shape := ⟨2, ![512, 1]⟩
abbrev S512x64 : Shape := ⟨2, ![512, 64]⟩
abbrev S262144x1 : Shape := ⟨2, ![262144, 1]⟩
abbrev S4096x512 : Shape := ⟨2, ![4096, 512]⟩
abbrev S4096x1 : Shape := ⟨2, ![4096, 1]⟩
abbrev S4096x64 : Shape := ⟨2, ![4096, 64]⟩
abbrev S4096 : Shape := ⟨1, ![4096]⟩

abbrev nBuf : Space → Nat
  | .hbm => 9
  | .vmem => 8
  | .smem => 0
  | _ => 0

abbrev bufTy : (tb : Table) → Fin (tcTables nBuf tb) → BufTy
  | .hbm, ⟨0, _⟩ => ⟨S262144x512, .f32⟩
  | .hbm, ⟨1, _⟩ => ⟨S1x1, .f32⟩
  | .hbm, ⟨2, _⟩ => ⟨S512x1, .f32⟩
  | .hbm, ⟨3, _⟩ => ⟨S512x64, .f32⟩
  | .hbm, ⟨4, _⟩ => ⟨S512x64, .bf16⟩
  | .hbm, ⟨5, _⟩ => ⟨S512x64, .f32⟩
  | .hbm, ⟨6, _⟩ => ⟨S512x64, .bf16⟩
  | .hbm, ⟨7, _⟩ => ⟨S512x1, .bf16⟩
  | .hbm, ⟨8, _⟩ => ⟨S262144x1, .f32⟩
  | .local _ .vmem, ⟨0, _⟩ => ⟨S4096x512, .f32⟩
  | .local _ .vmem, ⟨1, _⟩ => ⟨S4096x512, .f32⟩
  | .local _ .vmem, ⟨2, _⟩ => ⟨S512x64, .bf16⟩
  | .local _ .vmem, ⟨3, _⟩ => ⟨S512x64, .bf16⟩
  | .local _ .vmem, ⟨4, _⟩ => ⟨S512x1, .bf16⟩
  | .local _ .vmem, ⟨5, _⟩ => ⟨S1x1, .f32⟩
  | .local _ .vmem, ⟨6, _⟩ => ⟨S4096x1, .f32⟩
  | .local _ .vmem, ⟨7, _⟩ => ⟨S4096x1, .f32⟩
  | _, _ => ⟨S262144x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x1 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4096x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bitsLt_bf16_f32 : FTy.bits .bf16 < FTy.bits .f32
  inb_S4096x512_S4096x512_0_0 : ∀ a, (![0, 0] : Fin 2 → Nat) a + S4096x512.size a ≤ S4096x512.size a
  h_S4096x512 : 0 < S4096x512.numel
  inb_S512x64_S512x64_0_0 : ∀ a, (![0, 0] : Fin 2 → Nat) a + S512x64.size a ≤ S512x64.size a
  h_S512x64 : 0 < S512x64.numel
  shapeCasts_S512x64_S512x64 : S512x64.ShapeCasts S512x64
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S1x1_S1x1_0_0 : ∀ a, (![0, 0] : Fin 2 → Nat) a + S1x1.size a ≤ S1x1.size a
  h_S1x1 : 0 < S1x1.numel
  reduces_S4096x64_S4096 : S4096x64.Reduces [1] S4096
  shapeCasts_S4096_S4096x1 : S4096.ShapeCasts S4096x1
  broadcasts_S1x1_S4096x1 : S1x1.Broadcasts S4096x1
  inb_S4096x1_S4096x1_0_0 : ∀ a, (![0, 0] : Fin 2 → Nat) a + S4096x1.size a ≤ S4096x1.size a
  h_S4096x1 : 0 < S4096x1.numel
  dot_S4096x512_S512x64_S4096x64_1_0_0_1_n_n_wf : DotDims.WF S4096x512 S512x64 S4096x64 [1] [0] [0] [1] [] []
  dot_S4096x512_S512x1_S4096x1_1_0_0_1_n_n_wf : DotDims.WF S4096x512 S512x1 S4096x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x512.size a ≤ S262144x512.size a
  hwx0_0 : ∀ i : grid0.Coords, EltTy.bits .f32 = 32 ∨ (Rect.block (s := S262144x512) S4096x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x64.size a ≤ S512x64.size a
  hwx0_1 : ∀ i : grid0.Coords, EltTy.bits .bf16 = 32 ∨ (Rect.block (s := S512x64) S512x64.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x64.size a ≤ S512x64.size a
  hwx0_2 : ∀ i : grid0.Coords, EltTy.bits .bf16 = 32 ∨ (Rect.block (s := S512x64) S512x64.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x1.size a ≤ S512x1.size a
  hwx0_3 : ∀ i : grid0.Coords, EltTy.bits .bf16 = 32 ∨ (Rect.block (s := S512x1) S512x1.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4096x1.size a ≤ S262144x1.size a
  hwx0_5 : ∀ i : grid0.Coords, EltTy.bits .f32 = 32 ∨ (Rect.block (s := S262144x1) S4096x1.size (cc0_transform_5 i) (hinb0_5 i)).WholeWords (EltTy.packing .f32)

variable [Facts₀]

def dot_S4096x512_S512x64_S4096x64_1_0_0_1_n_n : DotDims S4096x512 S512x64 S4096x64 where
  lhsContracting := [1]
  rhsContracting := [0]
  lhsNonContracting := [0]
  rhsNonContracting := [1]
  lhsBatch := []
  rhsBatch := []
  wf := dot_S4096x512_S512x64_S4096x64_1_0_0_1_n_n_wf
def dot_S4096x512_S512x1_S4096x1_1_0_0_1_n_n : DotDims S4096x512 S512x1 S4096x1 where
  lhsContracting := [1]
  rhsContracting := [0]
  lhsNonContracting := [0]
  rhsNonContracting := [1]
  lhsBatch := []
  rhsBatch := []
  wf := dot_S4096x512_S512x1_S4096x1_1_0_0_1_n_n_wf

abbrev win0_0 : Pipeline.Window sig grid0 :=
  Pipeline.Window.ofSpec (Memref.whole main_arg0) S4096x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S512x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S512x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg1) S1x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S4096x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S262144x512 : Shape := ⟨2, ![262144, 512]⟩
abbrev S1x1 : Shape := ⟨2, ![1, 1]⟩
abbrev S512x1 : Shape := ⟨2, ![512, 1]⟩
abbrev S512x64 : Shape := ⟨2, ![512, 64]⟩
abbrev S262144x64 : Shape := ⟨2, ![262144, 64]⟩
abbrev S_ : Shape := ⟨0, ![]⟩
abbrev S262144 : Shape := ⟨1, ![262144]⟩
abbrev S262144x1 : Shape := ⟨2, ![262144, 1]⟩

abbrev nBuf : Space → Nat
  | .hbm => 28
  | .vmem => 0
  | .smem => 0
  | _ => 0

abbrev bufTy : (tb : Table) → Fin (tcTables nBuf tb) → BufTy
  | .hbm, ⟨0, _⟩ => ⟨S262144x512, .f32⟩
  | .hbm, ⟨1, _⟩ => ⟨S1x1, .f32⟩
  | .hbm, ⟨2, _⟩ => ⟨S512x1, .f32⟩
  | .hbm, ⟨3, _⟩ => ⟨S512x64, .f32⟩
  | .hbm, ⟨4, _⟩ => ⟨S262144x64, .f32⟩
  | .hbm, ⟨5, _⟩ => ⟨S262144x512, .f32⟩
  | .hbm, ⟨6, _⟩ => ⟨S512x64, .f32⟩
  | .hbm, ⟨7, _⟩ => ⟨S262144x64, .f32⟩
  | .hbm, ⟨8, _⟩ => ⟨S262144x64, .f32⟩
  | .hbm, ⟨9, _⟩ => ⟨S262144x64, .f32⟩
  | .hbm, ⟨10, _⟩ => ⟨S_, .f32⟩
  | .hbm, ⟨11, _⟩ => ⟨S262144, .f32⟩
  | .hbm, ⟨12, _⟩ => ⟨S262144x1, .f32⟩
  | .hbm, ⟨13, _⟩ => ⟨S_, .f32⟩
  | .hbm, ⟨14, _⟩ => ⟨S262144x1, .f32⟩
  | .hbm, ⟨15, _⟩ => ⟨S262144x1, .f32⟩
  | .hbm, ⟨16, _⟩ => ⟨S262144x1, .f32⟩
  | .hbm, ⟨17, _⟩ => ⟨S262144x1, .f32⟩
  | .hbm, ⟨18, _⟩ => ⟨S262144x1, .f32⟩
  | .hbm, ⟨19, _⟩ => ⟨S262144x1, .f32⟩
  | .hbm, ⟨20, _⟩ => ⟨S262144x1, .f32⟩
  | .hbm, ⟨21, _⟩ => ⟨S262144x1, .f32⟩
  | .hbm, ⟨22, _⟩ => ⟨S_, .f32⟩
  | .hbm, ⟨23, _⟩ => ⟨S262144x1, .f32⟩
  | .hbm, ⟨24, _⟩ => ⟨S262144x1, .f32⟩
  | .hbm, ⟨25, _⟩ => ⟨S_, .f32⟩
  | .hbm, ⟨26, _⟩ => ⟨S262144x1, .f32⟩
  | .hbm, ⟨27, _⟩ => ⟨S262144x1, .f32⟩
  | _, _ => ⟨S262144x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_1 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩

abbrev nD : Nat := 1
abbrev τ : Topo := Topo.v7x

variable {F : FTy → Type} [FloatOps F]

class Facts₀ : Prop where
  reducesTo_S262144x64_S262144_d1 : S262144x64.ReducesTo [1] S262144
  h_S_ : 0 < S_.numel
  bcast_S262144_S262144x1_0 : S262144.BroadcastsInDim S262144x1 (![0] : Fin 1 → Fin S262144x1.rank)
  bcast_S_S262144x1 : S_.BroadcastsInDim S262144x1 (![] : Fin 0 → Fin S262144x1.rank)
  bcast_S1x1_S262144x1_0_1 : S1x1.BroadcastsInDim S262144x1 (![0, 1] : Fin 2 → Fin S262144x1.rank)
  dot_S262144x512_S512x64_S262144x64_1_0_0_1_n_n_wf : DotDims.WF S262144x512 S512x64 S262144x64 [1] [0] [0] [1] [] []
  dot_S262144x512_S512x1_S262144x1_1_0_0_1_n_n_wf : DotDims.WF S262144x512 S512x1 S262144x1 [1] [0] [0] [1] [] []

variable [Facts₀]

def dot_S262144x512_S512x64_S262144x64_1_0_0_1_n_n : DotDims S262144x512 S512x64 S262144x64 where
  lhsContracting := [1]
  rhsContracting := [0]
  lhsNonContracting := [0]
  rhsNonContracting := [1]
  lhsBatch := []
  rhsBatch := []
  wf := dot_S262144x512_S512x64_S262144x64_1_0_0_1_n_n_wf
def dot_S262144x512_S512x1_S262144x1_1_0_0_1_n_n : DotDims S262144x512 S512x1 S262144x1 where
  lhsContracting := [1]
  rhsContracting := [0]
  lhsNonContracting := [0]
  rhsNonContracting := [1]
  lhsBatch := []
  rhsBatch := []
  wf := dot_S262144x512_S512x1_S262144x1_1_0_0_1_n_n_wf

class Facts : Prop extends Facts₀ where

variable [Facts]
-- ==== Proof.LibColumn.lean ====
/-
  Column-shaped values read at an index given by coordinates, and a lane sum read as a finite sum.

  A row-wise reduction that keeps its axis (`sum(…, axis=1, keepdims=True)`) leaves an `[a, 1]` column. Three re-layings
  of such a column occur whenever it meets a full `[a, b]` tile: the cast of the `[a]` vector of sums to the column, the
  column broadcast along the rows of the tile, and (for the other operand's sums) the column transposed to a `[1, b]` row,
  which the library's `transpose_ix2_apply` and `broadcastTo_1b_ab_apply` already read. Each lemma states what the
  re-laid value holds at `(p, c)` in terms of the original vector, for indices built by `ix1` / `ix2`, so that it applies
  to a printed operation by unification. Generic in the extents and in the element type.
-/
import Idealize.ShloMosaic.Lib.ValueLayout
import Idealize.ShloMosaic.PureOps.Ideal.Laws

namespace Cert.Lib.Column

open Idealize.ShloMosaic Idealize.ShloMosaic.ValueIdx

variable {α : Type}

/-- An `[a]` vector cast to the column `[a, 1]` reads, at `(i, u)`, the vector's entry `i`, whatever the unit
    coordinate `u`: both positions are `i` in row-major order. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry in row `p`: every column of the
    result is the operand. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum along the rows of an `[a, d]` block (a float `multi_reduction <add>` over axis 1 from the neutral
    accumulator), read on the extended reals at row `i`, is the finite sum of the row's `d` entries. -/
theorem rowSum_apply {φ : FTy} {a d : ℕ} (src : FVec Ideal ⟨2, ![a, d]⟩ φ) (acc : BitVec φ.bits)
    (h : (⟨2, ![a, d]⟩ : Shape).Reduces [1] ⟨1, ![a]⟩) (hφ : FKind.Formats φ) (hacc : acc = FKind.add.neutral φ hφ) (i : Fin a) :
    multiReduction .add [1] ⟨1, ![a]⟩ src acc h hφ hacc (ix1 i) = ∑ k : Fin d, src (ix2 i k) :=
  (Ideal.multiReduction_add_single src acc h hφ hacc (ix1 i)).trans
    (Finset.sum_congr rfl fun k _ => congrArg src (funext fun c => Fin.ext (by
      match c with
      | ⟨0, _⟩ => rfl
      | ⟨1, _⟩ => rfl)))

end Cert.Lib.Column
-- ==== Proof.Spec.lean ====
/-
  The value both programs compute, as one function of the arguments over the extended reals.

  For a row `x` of `nF` features, a bias `w0`, linear weights `w` and an `nF × nK` table of factor vectors `v`, a
  factorization machine scores the row by

      σ( ⟨x, w⟩ + w0 + ½ · Σ_k [ (Σ_f x_f v_{f,k})² − Σ_f x_f² · v2_{f,k} ] ),     σ(a) = 1 / (1 + e^{-a}),

  where `v2` is the table of squared factors `v_{f,k}²`. The bracket is the pairwise-interaction identity
  Σ_{f<f'} ⟨v_f, v_{f'}⟩ x_f x_{f'} = ½ Σ_k [(Σ_f x_f v_{f,k})² − Σ_f x_f² v_{f,k}²]; nothing here uses it, since both
  programs evaluate the right-hand side as written, with the sums, the products and the additions grouped the same way.
  `v2` is kept as an argument of its own because one program receives the squared table ready-made as a separate
  array and the other squares the table where it uses it.

  `½` stays the float word `0x3F000000` read at the ideal instance: both programs carry the same word, so its value is
  never needed.
-/
import Idealize.ShloMosaic.PureOps.Ideal
import Idealize.ShloMosaic.Lib.ValueIdx

noncomputable section

namespace Cert.FM

open Idealize.ShloMosaic Idealize.ShloMosaic.ValueIdx

/-- The score of ONE row: the logistic function of the linear term plus the bias plus half the summed interaction
    bracket. The grouping `(⟨x, w⟩ + w0) + ½ · Σ_k …` is the one both programs use. -/
def score {nF nK : ℕ} (x : Fin nF → EReal) (w0 : EReal) (w : Fin nF → EReal) (v v2 : Fin nF → Fin nK → EReal) : EReal :=
  Ideal.logistic ((∑ f, x f * w f + w0)
    + Ideal.ofBits .f32 0x3F000000#32
        * ∑ k, ((∑ f, x f * v f k) * (∑ f, x f * v f k) - ∑ f, x f * x f * v2 f k))

/-- The score depends on its five arguments only through their values: equal rows, biases, weights and tables give
    equal scores. -/
theorem score_congr {nF nK : ℕ} {x x' : Fin nF → EReal} {w0 w0' : EReal} {w w' : Fin nF → EReal}
    {v v' v2 v2' : Fin nF → Fin nK → EReal} (hx : x = x') (h0 : w0 = w0') (hw : w = w') (hv : v = v') (hv2 : v2 = v2') :
    score x w0 w v v2 = score x' w0' w' v' v2' := by
  subst hx h0 hw hv hv2; rfl

/-- The column of scores of an `nB × nF` array of rows: entry `(r, 0)` is the score of row `r`. The bias is the one
    entry of a `1 × 1` array, the linear weights an `nF × 1` column. -/
def scores {nB nF nK : ℕ} (x : (⟨2, ![nB, nF]⟩ : Shape).Idx → EReal) (w0 : (⟨2, ![1, 1]⟩ : Shape).Idx → EReal)
    (w : (⟨2, ![nF, 1]⟩ : Shape).Idx → EReal) (v v2 : (⟨2, ![nF, nK]⟩ : Shape).Idx → EReal) :
    (⟨2, ![nB, 1]⟩ : Shape).Idx → EReal :=
  fun i => score (fun f => x (ix2 (⟨(i 0).val, (i 0).isLt⟩ : Fin nB) f)) (w0 (ix2 (0 : Fin 1) (0 : Fin 1)))
    (fun f => w (ix2 f (0 : Fin 1))) (fun f k => v (ix2 f k)) (fun f k => v2 (ix2 f k))

/-- At an index given by its coordinates the column reads the row's score. -/
theorem scores_ix2 {nB nF nK : ℕ} (x : (⟨2, ![nB, nF]⟩ : Shape).Idx → EReal) (w0 : (⟨2, ![1, 1]⟩ : Shape).Idx → EReal)
    (w : (⟨2, ![nF, 1]⟩ : Shape).Idx → EReal) (v v2 : (⟨2, ![nF, nK]⟩ : Shape).Idx → EReal) (r : Fin nB) (u : Fin 1) :
    scores x w0 w v v2 (ix2 r u) = score (fun f => x (ix2 r f)) (w0 (ix2 (0 : Fin 1) (0 : Fin 1)))
      (fun f => w (ix2 f (0 : Fin 1))) (fun f k => v (ix2 f k)) (fun f k => v2 (ix2 f k)) := rfl

end Cert.FM

end
-- ==== Proof.KernelBody.lean ====
/-
  One grid point's arithmetic, read at an index.

  The body of the kernel loads a block of 4096 rows of `x`, the whole factor table, the whole table of squared factors,
  the whole column of linear weights and the bias, and stores a 4096 × 1 column. Read on the extended reals, where a change
  of float format is the identity, entry `(p, ·)` of that column is the score (`Cert.FM.score`) of row `p` of the block:

  * each of the three matrix products accumulates into zero, so its entry `(p, k)` is the plain sum over the 512
    features of left entry `(p, f)` times right entry `(f, k)`;
  * the sum along the 64 factor coordinates, kept as a column, reads at `(p, ·)` as the finite sum over `k` of row `p`;
  * the bias, a 1 × 1 array broadcast down the column, reads as its one entry.
-/
import proofs.«165682_j13065290514484_1_alg».proof.Proof.Gen.KernelIdeal.Skeleton
import proofs.«165682_j13065290514484_1_alg».proof.Proof.LibColumn
import proofs.«165682_j13065290514484_1_alg».proof.Proof.Spec
import Idealize.ShloMosaic.Lib.ValueIdx
import Idealize.ShloMosaic.Lib.Pipeline.Value
import Idealize.ShloMosaic.PureOps.Ideal.Laws

noncomputable section

namespace Cert.KernelIdeal.Body

open Cert.KernelIdeal Cert.KernelIdeal.Gen Idealize.ShloMosaic Idealize.ShloMosaic.ValueIdx

/-! ## The two contractions' operand indices, axis by axis

For a product contracting the left operand's axis 1 with the right operand's axis 0, the left index at output `(r, c)`
and contraction position `q` is `(r, q)` and the right index is `(q, c)`. -/

theorem lhsK_0 (i : S4096x64.Idx) (q : dot_S4096x512_S512x64_S4096x64_1_0_0_1_n_n.contr.Idx) :
    (dot_S4096x512_S512x64_S4096x64_1_0_0_1_n_n.lhsIdx i q 0).val = (i 0).val := by
  unfold DotDims.lhsIdx
  rw [dif_neg (show ¬(0 : Fin S4096x512.rank) ∈ dot_S4096x512_S512x64_S4096x64_1_0_0_1_n_n.lhsBatch by decide), dif_pos (show (0 : Fin S4096x512.rank) ∈ dot_S4096x512_S512x64_S4096x64_1_0_0_1_n_n.lhsNonContracting by decide)]
  rfl
theorem lhsK_1 (i : S4096x64.Idx) (q : dot_S4096x512_S512x64_S4096x64_1_0_0_1_n_n.contr.Idx) :
    (dot_S4096x512_S512x64_S4096x64_1_0_0_1_n_n.lhsIdx i q 1).val = (q ⟨0, by decide⟩).val :=
  dot_S4096x512_S512x64_S4096x64_1_0_0_1_n_n.lhsIdx_val_of_single rfl i q
theorem rhsK_0 (i : S4096x64.Idx) (q : dot_S4096x512_S512x64_S4096x64_1_0_0_1_n_n.contr.Idx) :
    (dot_S4096x512_S512x64_S4096x64_1_0_0_1_n_n.rhsIdx i q 0).val = (q ⟨0, by decide⟩).val :=
  dot_S4096x512_S512x64_S4096x64_1_0_0_1_n_n.rhsIdx_val_of_single rfl i q
theorem rhsK_1 (i : S4096x64.Idx) (q : dot_S4096x512_S512x64_S4096x64_1_0_0_1_n_n.contr.Idx) :
    (dot_S4096x512_S512x64_S4096x64_1_0_0_1_n_n.rhsIdx i q 1).val = (i 1).val := by
  unfold DotDims.rhsIdx
  rw [dif_neg (show ¬(1 : Fin S512x64.rank) ∈ dot_S4096x512_S512x64_S4096x64_1_0_0_1_n_n.rhsBatch by decide), dif_pos (show (1 : Fin S512x64.rank) ∈ dot_S4096x512_S512x64_S4096x64_1_0_0_1_n_n.rhsNonContracting by decide)]
  rfl

theorem lhsL_0 (i : S4096x1.Idx) (q : dot_S4096x512_S512x1_S4096x1_1_0_0_1_n_n.contr.Idx) :
    (dot_S4096x512_S512x1_S4096x1_1_0_0_1_n_n.lhsIdx i q 0).val = (i 0).val := by
  unfold DotDims.lhsIdx
  rw [dif_neg (show ¬(0 : Fin S4096x512.rank) ∈ dot_S4096x512_S512x1_S4096x1_1_0_0_1_n_n.lhsBatch by decide), dif_pos (show (0 : Fin S4096x512.rank) ∈ dot_S4096x512_S512x1_S4096x1_1_0_0_1_n_n.lhsNonContracting by decide)]
  rfl
theorem lhsL_1 (i : S4096x1.Idx) (q : dot_S4096x512_S512x1_S4096x1_1_0_0_1_n_n.contr.Idx) :
    (dot_S4096x512_S512x1_S4096x1_1_0_0_1_n_n.lhsIdx i q 1).val = (q ⟨0, by decide⟩).val :=
  dot_S4096x512_S512x1_S4096x1_1_0_0_1_n_n.lhsIdx_val_of_single rfl i q
theorem rhsL_0 (i : S4096x1.Idx) (q : dot_S4096x512_S512x1_S4096x1_1_0_0_1_n_n.contr.Idx) :
    (dot_S4096x512_S512x1_S4096x1_1_0_0_1_n_n.rhsIdx i q 0).val = (q ⟨0, by decide⟩).val :=
  dot_S4096x512_S512x1_S4096x1_1_0_0_1_n_n.rhsIdx_val_of_single rfl i q
theorem rhsL_1 (i : S4096x1.Idx) (q : dot_S4096x512_S512x1_S4096x1_1_0_0_1_n_n.contr.Idx) :
    (dot_S4096x512_S512x1_S4096x1_1_0_0_1_n_n.rhsIdx i q 1).val = (i 1).val := by
  unfold DotDims.rhsIdx
  rw [dif_neg (show ¬(1 : Fin S512x1.rank) ∈ dot_S4096x512_S512x1_S4096x1_1_0_0_1_n_n.rhsBatch by decide), dif_pos (show (1 : Fin S512x1.rank) ∈ dot_S4096x512_S512x1_S4096x1_1_0_0_1_n_n.rhsNonContracting by decide)]
  rfl

/-! ## The products as sums -/

/-- Entry `(p, k)` of a 4096 × 512 block times a 512 × 64 table, accumulated into zero: the sum over the features. -/
theorem factorProduct_apply (l : FVec Ideal S4096x512 .bf16) (r : FVec Ideal S512x64 .bf16) (p : Fin 4096) (k : Fin 64) :
    matmul dot_S4096x512_S512x64_S4096x64_1_0_0_1_n_n none l r (constant (F := Ideal) S4096x64 .f32 0x00000000#32) (ix2 p k)
      = ∑ f : Fin 512, l (ix2 p f) * r (ix2 f k) := by
  refine (Ideal.matmul_constant_zero_apply dot_S4096x512_S512x64_S4096x64_1_0_0_1_n_n none l r (ix2 p k)).trans ?_
  rw [← Equiv.sum_comp (ValueIdx.contrEquiv1 dot_S4096x512_S512x64_S4096x64_1_0_0_1_n_n 512 rfl rfl).symm]
  refine Finset.sum_congr rfl fun f _ => ?_
  have hf := ValueIdx.contrEquiv1_symm_val dot_S4096x512_S512x64_S4096x64_1_0_0_1_n_n 512 rfl rfl f
  have el : dot_S4096x512_S512x64_S4096x64_1_0_0_1_n_n.lhsIdx (ix2 p k) ((ValueIdx.contrEquiv1 dot_S4096x512_S512x64_S4096x64_1_0_0_1_n_n 512 rfl rfl).symm f) = ix2 p f := funext fun a => Fin.ext (by
    match a with
    | ⟨0, _⟩ => exact lhsK_0 _ _
    | ⟨1, _⟩ => exact (lhsK_1 _ _).trans hf)
  have er : dot_S4096x512_S512x64_S4096x64_1_0_0_1_n_n.rhsIdx (ix2 p k) ((ValueIdx.contrEquiv1 dot_S4096x512_S512x64_S4096x64_1_0_0_1_n_n 512 rfl rfl).symm f) = ix2 f k := funext fun a => Fin.ext (by
    match a with
    | ⟨0, _⟩ => exact (rhsK_0 _ _).trans hf
    | ⟨1, _⟩ => exact rhsK_1 _ _)
  rw [el, er]

/-- Entry `(p, ·)` of a 4096 × 512 block times a 512 × 1 column, accumulated into zero: the sum over the features. -/
theorem linearProduct_apply (l : FVec Ideal S4096x512 .bf16) (r : FVec Ideal S512x1 .bf16) (p : Fin 4096) (k : Fin 1) :
    matmul dot_S4096x512_S512x1_S4096x1_1_0_0_1_n_n none l r (constant (F := Ideal) S4096x1 .f32 0x00000000#32) (ix2 p k)
      = ∑ f : Fin 512, l (ix2 p f) * r (ix2 f k) := by
  refine (Ideal.matmul_constant_zero_apply dot_S4096x512_S512x1_S4096x1_1_0_0_1_n_n none l r (ix2 p k)).trans ?_
  rw [← Equiv.sum_comp (ValueIdx.contrEquiv1 dot_S4096x512_S512x1_S4096x1_1_0_0_1_n_n 512 rfl rfl).symm]
  refine Finset.sum_congr rfl fun f _ => ?_
  have hf := ValueIdx.contrEquiv1_symm_val dot_S4096x512_S512x1_S4096x1_1_0_0_1_n_n 512 rfl rfl f
  have el : dot_S4096x512_S512x1_S4096x1_1_0_0_1_n_n.lhsIdx (ix2 p k) ((ValueIdx.contrEquiv1 dot_S4096x512_S512x1_S4096x1_1_0_0_1_n_n 512 rfl rfl).symm f) = ix2 p f := funext fun a => Fin.ext (by
    match a with
    | ⟨0, _⟩ => exact lhsL_0 _ _
    | ⟨1, _⟩ => exact (lhsL_1 _ _).trans hf)
  have er : dot_S4096x512_S512x1_S4096x1_1_0_0_1_n_n.rhsIdx (ix2 p k) ((ValueIdx.contrEquiv1 dot_S4096x512_S512x1_S4096x1_1_0_0_1_n_n 512 rfl rfl).symm f) = ix2 f k := funext fun a => Fin.ext (by
    match a with
    | ⟨0, _⟩ => exact (rhsL_0 _ _).trans hf
    | ⟨1, _⟩ => exact rhsL_1 _ _)
  rw [el, er]

/-! ## The two re-laid values -/

/-- The 1 × 1 bias broadcast down a 4096 × 1 column reads, everywhere, its one entry. -/
theorem bias_apply (b : FVec Ideal S1x1 .f32) (p : Fin 4096) (q : Fin 1) :
    broadcastTo S4096x1 b broadcasts_S1x1_S4096x1 (ix2 p q) = b (ix2 (0 : Fin 1) (0 : Fin 1)) := by
  refine broadcastTo_apply b broadcasts_S1x1_S4096x1 (ix2 p q) (ix2 (0 : Fin 1) (0 : Fin 1)) fun a => ?_
  match a with
  | ⟨0, _⟩ => show 0 = if (1 : Nat) = 1 then 0 else _; rw [if_pos rfl]
  | ⟨1, _⟩ => show 0 = if (1 : Nat) = 1 then 0 else _; rw [if_pos rfl]

/-- The sum of a 4096 × 64 block along its 64 columns, kept as a 4096 × 1 column, reads at `(p, ·)` as the finite sum
    of row `p`. -/
theorem rowSumColumn_apply (y : FVec Ideal S4096x64 .f32) (p : Fin 4096) (q : Fin 1) :
    shapeCast S4096x1 (multiReduction .add [1] S4096 y 0x00000000#32 reduces_S4096x64_S4096 (.inl rfl) rfl) shapeCasts_S4096_S4096x1 (ix2 p q)
      = ∑ k : Fin 64, y (ix2 p k) :=
  (Cert.Lib.Column.shapeCast_a_a1_apply _ shapeCasts_S4096_S4096x1 p q).trans
    (Cert.Lib.Column.rowSum_apply y 0x00000000#32 reduces_S4096x64_S4096 (.inl rfl) rfl p)

/-! ## The stored column -/

/-- Entry `(p, ·)` of the column one grid point stores is the score of row `p` of the loaded block against the loaded
    tables. The three same-shape casts are identities; after them the stored value is, node for node, the score's own
    expression, each product read by its sum lemma and the kept column of sums by `rowSumColumn_apply`. -/
theorem stored_apply (v0 : FVec Ideal S4096x512 .f32) (v2 v4 : FVec Ideal S512x64 .bf16) (v6 : FVec Ideal S512x1 .bf16)
    (v8 : FVec Ideal S1x1 .f32) (p : Fin 4096) (q : Fin 1) :
    k0_pay1 (F := Ideal) v0 v2 v4 v6 v8 (ix2 p q)
      = Cert.FM.score (fun f => v0 (ix2 p f)) (v8 (ix2 (0 : Fin 1) (0 : Fin 1))) (fun f => v6 (ix2 f (0 : Fin 1)))
          (fun f k => v2 (ix2 f k)) (fun f k => v4 (ix2 f k)) := by
  obtain rfl : q = 0 := Fin.eq_zero q
  unfold k0_pay1 Cert.FM.score
  dsimp only
  rw [shapeCast_self v6, shapeCast_self v2, shapeCast_self v4]
  refine congrArg Ideal.logistic ?_
  refine congrArg₂ (· + ·) (congrArg₂ (· + ·) ?_ ?_) (congrArg₂ (· * ·) rfl ?_)
  · exact linearProduct_apply _ v6 p 0
  · exact bias_apply v8 p 0
  · refine (rowSumColumn_apply _ p 0).trans (Finset.sum_congr rfl fun k _ => ?_)
    refine congrArg₂ (· - ·) (congrArg₂ (· * ·) ?_ ?_) ?_
    · exact factorProduct_apply _ v2 p k
    · exact factorProduct_apply _ v2 p k
    · exact factorProduct_apply _ v4 p k

end Cert.KernelIdeal.Body

end
-- ==== Proof.KernelColumn.lean ====
/-
  From one grid point's column to the whole result array.

  The grid has 64 points. Point `t` stages rows `4096·t … 4096·t + 4095` of `x` together with the whole factor table, the
  whole table of squared factors, the whole column of weights and the bias, and writes back rows `4096·t … 4096·t + 4095` of the
  result column. So what point `t` writes back is block `t` of ONE column, the scores (`Cert.FM.scores`) of all 262144
  rows against the tables as the kernel region finds them; the 64 blocks tile the column, so after the run the result
  array is that column. The tables the region finds were written by the operations that precede it: the factor table and
  the weights with their float format changed (the identity on the extended reals), and the factor table squared entry
  by entry; substituting these gives the result as a function of the four arguments.
-/
import proofs.«165682_j13065290514484_1_alg».proof.Proof.Gen.KernelIdeal.Value
import proofs.«165682_j13065290514484_1_alg».proof.Proof.KernelBody
import Idealize.ShloMosaic.Lib.Pipeline.Value
import Idealize.ShloMosaic.Lib.StableHlo.Run
import Idealize.ShloMosaic.Lib.Tactic

noncomputable section

namespace Cert.KernelIdeal.Column

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem origin : (![0, 0] : Fin 2 → Nat) = fun _ => 0 := funext fun a => by fin_cases a <;> rfl

/-- The block each window stages at point `t`, decided over the 64 points: the rows of `x` and of the result move with
    `t` along axis 0; every other window stays on its one block. -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-! ## The staged blocks, read off the arrays -/

/-- Entry `(p, f)` of the block of `x` staged at point `t` is entry `(4096·t + p, f)` of `x`. -/
theorem rows_apply (c : Dev nD) (t : Fin cfg0.N) (p : Fin 4096) (f : Fin 512) (r : Fin 262144) (hr : r.val = t.val * 4096 + p.val) :
    (iblk m c 0 t : Vec Ideal S4096x512 .f32) (ix2 p f) = (V m c main_arg0 : S262144x512.Idx → Elt Ideal .f32) (ix2 r f) := by
  obtain ⟨e0, e1, -⟩ := block_indices t
  show (V m c main_arg0 : S262144x512.Idx → Elt Ideal .f32) (((cfg0.win 0).blk t).view.emb (ix2 p f)) = _
  refine congrArg (V m c main_arg0 : S262144x512.Idx → Elt Ideal .f32) ?_
  funext a; apply Fin.ext
  match a with
  | ⟨0, _⟩ => show win0_0.index t (0 : Fin 2) * 4096 + 1 * p.val = r.val; rw [e0, hr]; omega
  | ⟨1, _⟩ => show win0_0.index t (1 : Fin 2) * 512 + 1 * f.val = f.val; rw [e1]; omega

/-- The staged factor table is the whole table. -/
theorem factors_block (c : Dev nD) (t : Fin cfg0.N) :
    (iblk m c 1 t : Vec Ideal S512x64 .bf16) = (V m c main_v0 : S512x64.Idx → Elt Ideal .bf16) := by
  obtain ⟨-, -, e0, e1, -⟩ := block_indices t
  funext x
  show (V m c main_v0 : S512x64.Idx → Elt Ideal .bf16) (((cfg0.win 1).blk t).view.emb x) = _
  refine congrArg (V m c main_v0 : S512x64.Idx → Elt Ideal .bf16) ?_
  funext a; apply Fin.ext
  match a with
  | ⟨0, _⟩ => show win0_1.index t (0 : Fin 2) * 512 + 1 * (x 0).val = (x 0).val; rw [e0]; omega
  | ⟨1, _⟩ => show win0_1.index t (1 : Fin 2) * 64 + 1 * (x 1).val = (x 1).val; rw [e1]; omega

/-- The staged table of squared factors is the whole table. -/
theorem squares_block (c : Dev nD) (t : Fin cfg0.N) :
    (iblk m c 2 t : Vec Ideal S512x64 .bf16) = (V m c main_v2 : S512x64.Idx → Elt Ideal .bf16) := by
  obtain ⟨-, -, -, -, e0, e1, -⟩ := block_indices t
  funext x
  show (V m c main_v2 : S512x64.Idx → Elt Ideal .bf16) (((cfg0.win 2).blk t).view.emb x) = _
  refine congrArg (V m c main_v2 : S512x64.Idx → Elt Ideal .bf16) ?_
  funext a; apply Fin.ext
  match a with
  | ⟨0, _⟩ => show win0_2.index t (0 : Fin 2) * 512 + 1 * (x 0).val = (x 0).val; rw [e0]; omega
  | ⟨1, _⟩ => show win0_2.index t (1 : Fin 2) * 64 + 1 * (x 1).val = (x 1).val; rw [e1]; omega

/-- The staged column of weights is the whole column. -/
theorem weights_block (c : Dev nD) (t : Fin cfg0.N) :
    (iblk m c 3 t : Vec Ideal S512x1 .bf16) = (V m c main_v3 : S512x1.Idx → Elt Ideal .bf16) := by
  obtain ⟨-, -, -, -, -, -, e0, e1, -⟩ := block_indices t
  funext x
  show (V m c main_v3 : S512x1.Idx → Elt Ideal .bf16) (((cfg0.win 3).blk t).view.emb x) = _
  refine congrArg (V m c main_v3 : S512x1.Idx → Elt Ideal .bf16) ?_
  funext a; apply Fin.ext
  match a with
  | ⟨0, _⟩ => show win0_3.index t (0 : Fin 2) * 512 + 1 * (x 0).val = (x 0).val; rw [e0]; omega
  | ⟨1, _⟩ => show win0_3.index t (1 : Fin 2) * 1 + 1 * (x 1).val = (x 1).val; rw [e1]; omega

/-- The staged bias is the whole 1 × 1 array. -/
theorem bias_block (c : Dev nD) (t : Fin cfg0.N) :
    (iblk m c 4 t : Vec Ideal S1x1 .f32) = (V m c main_arg1 : S1x1.Idx → Elt Ideal .f32) := by
  obtain ⟨-, -, -, -, -, -, -, -, e0, e1, -⟩ := block_indices t
  funext x
  show (V m c main_arg1 : S1x1.Idx → Elt Ideal .f32) (((cfg0.win 4).blk t).view.emb x) = _
  refine congrArg (V m c main_arg1 : S1x1.Idx → Elt Ideal .f32) ?_
  funext a; apply Fin.ext
  match a with
  | ⟨0, _⟩ => show win0_4.index t (0 : Fin 2) * 1 + 1 * (x 0).val = (x 0).val; rw [e0]; omega
  | ⟨1, _⟩ => show win0_4.index t (1 : Fin 2) * 1 + 1 * (x 1).val = (x 1).val; rw [e1]; omega

/-! ## What a point writes back is a block of one column -/

/-- The scores of all 262144 rows against the bias, the weights and the two tables as the kernel region finds them. -/
abbrev regionScores (c : Dev nD) : S262144x1.Idx → Elt Ideal .f32 :=
  Cert.FM.scores (nB := 262144) (nF := 512) (nK := 64) (V m c main_arg0) (V m c main_arg1) (V m c main_v3) (V m c main_v0) (V m c main_v2)

/-- WHAT POINT `t` WRITES BACK is block `t` of that column: the stored column's entry `(p, ·)` is the score of row `p` of
    the staged rows (`Body.stored_apply`), which are rows `4096·t + p` of `x`, against the staged tables, which are the whole
    tables; and the block's entry `(p, ·)` sits at row `4096·t + p` of the array. -/
theorem flushed_eq (c : Dev nD) (t : Fin cfg0.N) :
    (dats m 0 c).flushed 5 t = ((cfg0.win 5).blk t).view.read (Elt Ideal) (regionScores m c) := by
  rw [Cert.KernelIdeal.Value.flushed5]
  unfold out0_5
  rw [View.canon_unit_zero origin]
  simp only [View.ld_unit_zero (S := S4096x512) origin, View.ld_unit_zero (S := S512x64) origin,
    View.ld_unit_zero (S := S512x1) origin, View.ld_unit_zero (S := S1x1) origin]
  obtain ⟨-, -, -, -, -, -, -, -, -, -, e0, e1⟩ := block_indices t
  funext j
  show k0_pay1 (F := Ideal) (iblk m c 0 t) (iblk m c 1 t) (iblk m c 2 t) (iblk m c 3 t) (iblk m c 4 t) j
    = regionScores m c (((cfg0.win 5).blk t).view.emb j)
  obtain ⟨p, q, rfl⟩ : ∃ (p : Fin 4096) (q : Fin 1), (j : S4096x1.Idx) = ix2 p q := ⟨j 0, j 1, eq_ix2 j⟩
  have hrow : ((((cfg0.win 5).blk t).view.emb (ix2 p q)) 0).val = t.val * 4096 + p.val := by
    show win0_5.index t (0 : Fin 2) * 4096 + 1 * p.val = _
    rw [e0]; omega
  refine (Cert.KernelIdeal.Body.stored_apply (iblk m c 0 t) (iblk m c 1 t) (iblk m c 2 t) (iblk m c 3 t) (iblk m c 4 t) p q).trans ?_
  exact Cert.FM.score_congr
    (funext fun f => rows_apply m c t p f ⟨_, ((((cfg0.win 5).blk t).view.emb (ix2 p q)) 0).isLt⟩ hrow)
    (congrFun (bias_block m c t) (ix2 (0 : Fin 1) (0 : Fin 1)))
    (funext fun f => congrFun (weights_block m c t) (ix2 f (0 : Fin 1)))
    (funext fun f => funext fun k => congrFun (factors_block m c t) (ix2 f k))
    (funext fun f => funext fun k => congrFun (squares_block m c t) (ix2 f k))

/-! ## The blocks tile the column -/

/-- An index of the result array is in point `t`'s block iff each coordinate is in the block's range on its axis. -/
theorem mem_block (t : Fin cfg0.N) (i : S262144x1.Idx) :
    i ∈ ((cfg0.win 5).blk t).view.set ↔ ∀ a : Fin 2, win0_5.index t a * S4096x1.size a ≤ (i a).val ∧ (i a).val < win0_5.index t a * S4096x1.size a + S4096x1.size a := by
  show i ∈ ((View.whole main_v4).slice (win0_5.rect t)).set ↔ _
  rw [View.set_slice_whole, Rect.mem_set_unit]
  exact Iff.rfl

/-- Row `r` of the result is in the block of point `r / 4096`, which writes back. -/
theorem covered (i : S262144x1.Idx) : ∃ t : Fin cfg0.N, (cfg0.win 5).flush t = true ∧ i ∈ ((cfg0.win 5).blk t).view.set := by
  have hi0 : (i 0).val < 262144 := (i 0).isLt
  have hi1 : (i 1).val < 1 := (i 1).isLt
  obtain ⟨t, ht⟩ : ∃ t : Fin cfg0.N, t.val = (i 0).val / 4096 :=
    ⟨⟨(i 0).val / 4096, by rw [show cfg0.N = 64 from N_0]; omega⟩, rfl⟩
  obtain ⟨-, -, -, -, -, -, -, -, -, -, e0, e1⟩ := block_indices t
  refine ⟨t, flush0_5 t, ?_⟩
  rw [mem_block]
  intro a
  match a with
  | ⟨0, _⟩ =>
    show win0_5.index t (0 : Fin 2) * 4096 ≤ (i 0).val ∧ (i 0).val < win0_5.index t (0 : Fin 2) * 4096 + 4096
    rw [e0, ht]; omega
  | ⟨1, _⟩ =>
    show win0_5.index t (1 : Fin 2) * 1 ≤ (i 1).val ∧ (i 1).val < win0_5.index t (1 : Fin 2) * 1 + 1
    rw [e1]; omega

/-- THE RESULT ARRAY after the run is the column of scores against the region's tables. -/
theorem final (c : Dev nD) : (dats m 0 c).arrAt 5 cfg0.N = regionScores m c :=
  (dats m 0 c).arrAt_eq_of_cover 5 (regionScores m c) (fun t _ => flushed_eq m c t) covered

/-! ## The tables the region finds, from the arguments -/

/-- The four arguments, and the five arrays the region's windows stage, each at its literal vector type. -/
abbrev rowsArg (c : Dev nD) : FVec Ideal S262144x512 .f32 := m ((c : Thread nD τ).loc main_arg0)
abbrev biasArg (c : Dev nD) : FVec Ideal S1x1 .f32 := m ((c : Thread nD τ).loc main_arg1)
abbrev weightsArg (c : Dev nD) : FVec Ideal S512x1 .f32 := m ((c : Thread nD τ).loc main_arg2)
abbrev tableArg (c : Dev nD) : FVec Ideal S512x64 .f32 := m ((c : Thread nD τ).loc main_arg3)
abbrev rowsFound (c : Dev nD) : FVec Ideal S262144x512 .f32 := V m c main_arg0
abbrev biasFound (c : Dev nD) : FVec Ideal S1x1 .f32 := V m c main_arg1
abbrev weightsFound (c : Dev nD) : FVec Ideal S512x1 .bf16 := V m c main_v3
abbrev tableFound (c : Dev nD) : FVec Ideal S512x64 .bf16 := V m c main_v0
abbrev squaresFound (c : Dev nD) : FVec Ideal S512x64 .bf16 := V m c main_v2

/-- No operation before the region writes `x` or the bias. -/
theorem rowsFound_eq (c : Dev nD) : rowsFound m c = rowsArg m c := V_main_arg0 m c
theorem biasFound_eq (c : Dev nD) : biasFound m c = biasArg m c := V_main_arg1 m c

/-- The factor table the region finds is the argument table: its float format was changed, which is the identity on
    the extended reals. -/
theorem tableFound_eq (c : Dev nD) : tableFound m c = tableArg m c := by
  have e : tableFound m c = truncf .bf16 (tableArg m c) bitsLt_bf16_f32 := by
    dsimp only [tableFound, tableArg, Gen.V, Gen.hostOps0]; after_results
  exact e

/-- The table of squared factors the region finds is the argument table squared entry by entry. -/
theorem squaresFound_eq (c : Dev nD) : squaresFound m c = fun i => tableArg m c i * tableArg m c i := by
  have e : squaresFound m c = truncf .bf16 (mulf (tableArg m c) (tableArg m c)) bitsLt_bf16_f32 := by
    dsimp only [squaresFound, tableArg, Gen.V, Gen.hostOps0]; after_results
  exact e

/-- The column of weights the region finds is the argument column, its float format changed. -/
theorem weightsFound_eq (c : Dev nD) : weightsFound m c = weightsArg m c := by
  have e : weightsFound m c = truncf .bf16 (weightsArg m c) bitsLt_bf16_f32 := by
    dsimp only [weightsFound, weightsArg, Gen.V, Gen.hostOps0]; after_results
  exact e

/-- The result as a function of the four arguments: the scores of the rows of `x` against the bias, the weights, the
    factor table and its entrywise square. -/
abbrev result (c : Dev nD) : S262144x1.Idx → Elt Ideal .f32 :=
  Cert.FM.scores (nB := 262144) (nF := 512) (nK := 64) (rowsArg m c) (biasArg m c) (weightsArg m c) (tableArg m c)
    (fun i => tableArg m c i * tableArg m c i)

theorem regionScores_eq (c : Dev nD) : regionScores m c = result m c := by
  show Cert.FM.scores (nB := 262144) (nF := 512) (nK := 64) (rowsFound m c) (biasFound m c) (weightsFound m c)
      (tableFound m c) (squaresFound m c) = _
  rw [rowsFound_eq, biasFound_eq, weightsFound_eq, tableFound_eq, squaresFound_eq]

/-! ## The run, read -/

/-- Every weakly fair execution of the kernel's program terminates with the result array at `result` and the four
    arguments unchanged. -/
theorem run : θ_run defs (onTc (τ := τ) (main (F := Ideal))) ⟨m, fun _ => 0, ρ⟩ fun r => ∀ c : Dev nD,
      r.2.mem ((c : Thread nD τ).loc main_v4) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans ((final m c).trans (regionScores_eq m c)), (h c).2⟩)
    (Cert.KernelIdeal.Value.run_blocks m ρ)

end Cert.KernelIdeal.Column

end
-- ==== Proof.ReferenceColumn.lean ====
/-
  The reference computes the same column.

  Read one operation at a time, the reference's result at row `r` is
  `1 / (1 + exp (−a_r))` with `a_r = (⟨x_r, w⟩ + w0) + ½ · (0 + Σ_k [(Σ_f x_{r,f} v_{f,k})² − Σ_f (x_{r,f} x_{r,f}) (v_{f,k} v_{f,k})])`.
  On the extended reals `1 / (1 + exp (−a))` IS the logistic function of `a` (its definition there, corners included), the
  reduction's initial value is the zero word, and the literal `1.0` is the real number one; so the result is the score
  (`Cert.FM.score`) of row `r` against the bias, the weights, the factor table and its entrywise square.
-/
import proofs.«165682_j13065290514484_1_alg».proof.Proof.Gen.ReferenceIdeal.Read
import proofs.«165682_j13065290514484_1_alg».proof.Proof.Spec
import Idealize.ShloMosaic.Lib.ValueIdx
import Idealize.ShloMosaic.PureOps.Ideal.Laws

noncomputable section

namespace Cert.ReferenceIdeal.Column

open Cert.ReferenceIdeal Cert.ReferenceIdeal.Gen Cert.ReferenceIdeal.Read Idealize.ShloMosaic Idealize.ShloMosaic.ValueIdx

/-- The float word of `1.0` is the real number one. -/
theorem ofBits_one_f32 : Ideal.ofBits .f32 0x3F800000#32 = 1 := by
  simp [Ideal.ofBits, Ideal.ieee]
  rw [← EReal.coe_mul, ← EReal.coe_one]
  exact congrArg _ (by norm_num)

/-! ## The reference's operand indices at a row -/

theorem linLeft (r : Fin 262144) (f : Fin 512) : lidx_main_v10 (ix2 r (0 : Fin 1)) f = ix2 r f :=
  funext fun a => Fin.ext (by match a with | ⟨0, _⟩ => rfl | ⟨1, _⟩ => rfl)
theorem linRight (r : Fin 262144) (f : Fin 512) : ridx_main_v10 (ix2 r (0 : Fin 1)) f = ix2 f (0 : Fin 1) :=
  funext fun a => Fin.ext (by match a with | ⟨0, _⟩ => rfl | ⟨1, _⟩ => rfl)
theorem biasIdx (r : Fin 262144) : idx_main_v11 (ix2 r (0 : Fin 1)) = ix2 (0 : Fin 1) (0 : Fin 1) :=
  funext fun a => Fin.ext (by match a with | ⟨0, _⟩ => rfl | ⟨1, _⟩ => rfl)
theorem facLeft (r : Fin 262144) (k : Fin 64) (f : Fin 512) :
    lidx_main_v0 (idx_main_v6 (idx_main_v7 (ix2 r (0 : Fin 1))) k) f = ix2 r f :=
  funext fun a => Fin.ext (by match a with | ⟨0, _⟩ => rfl | ⟨1, _⟩ => rfl)
theorem facRight (r : Fin 262144) (k : Fin 64) (f : Fin 512) :
    ridx_main_v0 (idx_main_v6 (idx_main_v7 (ix2 r (0 : Fin 1))) k) f = ix2 f k :=
  funext fun a => Fin.ext (by match a with | ⟨0, _⟩ => rfl | ⟨1, _⟩ => rfl)
theorem sqLeft (r : Fin 262144) (k : Fin 64) (f : Fin 512) :
    lidx_main_v3 (idx_main_v6 (idx_main_v7 (ix2 r (0 : Fin 1))) k) f = ix2 r f :=
  funext fun a => Fin.ext (by match a with | ⟨0, _⟩ => rfl | ⟨1, _⟩ => rfl)
theorem sqRight (r : Fin 262144) (k : Fin 64) (f : Fin 512) :
    ridx_main_v3 (idx_main_v6 (idx_main_v7 (ix2 r (0 : Fin 1))) k) f = ix2 f k :=
  funext fun a => Fin.ext (by match a with | ⟨0, _⟩ => rfl | ⟨1, _⟩ => rfl)

/-! ## The last stage is the column of scores -/

/-- Row `r` of the reference's last stage is the score of row `r` of `x`. -/
theorem stage_apply (x0 : FVec Ideal S262144x512 .f32) (x1 : FVec Ideal S1x1 .f32) (x2 : FVec Ideal S512x1 .f32) (x3 : FVec Ideal S512x64 .f32)
    (r : Fin 262144) (u : Fin 1) :
    val_main_v19 (F := Ideal) x0 x1 x2 x3 (ix2 r u)
      = Cert.FM.score (fun f => x0 (ix2 r f)) (x1 (ix2 (0 : Fin 1) (0 : Fin 1))) (fun f => x2 (ix2 f (0 : Fin 1)))
          (fun f k => x3 (ix2 f k)) (fun f k => x3 (ix2 f k) * x3 (ix2 f k)) := by
  obtain rfl : u = 0 := Fin.eq_zero u
  simp only [val_main_v19_apply, val_main_v18_apply, val_main_cst_2_apply, val_main_v17_apply, val_main_v16_apply,
    val_main_cst_1_apply, val_main_v15_apply, val_main_v14_apply, val_main_v13_apply, val_main_v12_apply,
    val_main_v11_apply, val_main_v10_apply, val_main_v9_apply, val_main_v8_apply, val_main_cst_0_apply,
    val_main_v7_apply, val_main_v6_apply, val_main_cst_apply, val_main_v5_apply, val_main_v4_apply,
    val_main_v3_apply, val_main_v2_apply, val_main_v1_apply, val_main_v0_apply]
  simp only [linLeft, linRight, biasIdx, facLeft, facRight, sqLeft, sqRight,
    Ideal.hostDivf_def, Ideal.addf_def, Ideal.mulf_def, Ideal.subf_def, Ideal.hostUnary_exp_def, Ideal.hostNegf_def,
    Ideal.negf_def, Ideal.ofBits_def, ofBits_one_f32, Ideal.ofBits_zero_f32, zero_add, Cert.FM.score, Ideal.logistic]

/-- The reference's last stage is the column of scores of the rows of `x` against the bias, the weights, the factor table
    and its entrywise square. -/
theorem stage_eq (x0 : FVec Ideal S262144x512 .f32) (x1 : FVec Ideal S1x1 .f32) (x2 : FVec Ideal S512x1 .f32) (x3 : FVec Ideal S512x64 .f32) :
    val_main_v19 (F := Ideal) x0 x1 x2 x3
      = Cert.FM.scores (nB := 262144) (nF := 512) (nK := 64) x0 x1 x2 x3 (fun i => x3 i * x3 i) := by
  funext i
  obtain ⟨r, u, rfl⟩ : ∃ (r : Fin 262144) (u : Fin 1), i = ix2 r u := ⟨i 0, i 1, eq_ix2 i⟩
  rw [Cert.FM.scores_ix2]
  exact stage_apply x0 x1 x2 x3 r u

end Cert.ReferenceIdeal.Column

end
-- ==== Proof.lean ====
/-
  A factorization machine's scores: a tiled kernel against the plain formula.

  Both programs take 262144 rows `x` of 512 features, a bias `w0`, a column `w` of linear weights and a 512 × 64 table `v`
  of factor vectors, and return for every row

      σ( (⟨x, w⟩ + w0) + ½ · Σ_k [ (Σ_f x_f v_{f,k})² − Σ_f x_f² v_{f,k}² ] ),     σ(a) = 1 / (1 + e^{-a}).

  The kernel walks the rows in 64 blocks of 4096; at each block it holds the whole table, the table squared entry by
  entry (prepared before the launch) and the weights, forms the three products on the matrix unit in a narrower float
  format, and applies the logistic function as one operation. The reference evaluates the same expression on whole
  arrays and spells the logistic function out as `1 / (1 + exp (−a))`.

  On the extended reals the two agree for every input, with no use of finiteness:
  * a change of float format is the identity, so the narrower operands are the operands;
  * a product accumulated into zero is the plain sum over the features, on either side, in the same order;
  * the tiling only decides WHICH rows a grid point computes: block `t` of the result is rows `4096·t … 4096·t + 4095` of one
    column, and the 64 blocks tile it;
  * the logistic function there is by definition `1 / (1 + exp (−a))`, corners included;
  * every sum, product and addition is grouped the same way in both programs, so no law of arithmetic is needed beyond
    `0 + s = s` for the reference's reduction from zero, and the only literal evaluated is `1.0`.

  `Spec` states the score; `KernelBody` reads one grid point's stored column as scores of the staged rows; `KernelColumn`
  passes from blocks to the whole array and to the arguments; `ReferenceColumn` reads the reference's last stage as the
  same column. Below: the three frames, the (empty) ledger, and the two runs set side by side.
-/
import proofs.«165682_j13065290514484_1_alg».proof.Defs
import proofs.«165682_j13065290514484_1_alg».proof.Proof.Gen.Kernel
import proofs.«165682_j13065290514484_1_alg».proof.Proof.Gen.Kernel.Skeleton
import proofs.«165682_j13065290514484_1_alg».proof.Proof.Gen.Kernel.Launch
import proofs.«165682_j13065290514484_1_alg».proof.Proof.Gen.Kernel.Points
import proofs.«165682_j13065290514484_1_alg».proof.Proof.Gen.Kernel.Frame
import proofs.«165682_j13065290514484_1_alg».proof.Proof.Gen.KernelIdeal
import proofs.«165682_j13065290514484_1_alg».proof.Proof.Gen.KernelIdeal.Skeleton
import proofs.«165682_j13065290514484_1_alg».proof.Proof.Gen.KernelIdeal.Launch
import proofs.«165682_j13065290514484_1_alg».proof.Proof.Gen.KernelIdeal.Points
import proofs.«165682_j13065290514484_1_alg».proof.Proof.Gen.KernelIdeal.Frame
import proofs.«165682_j13065290514484_1_alg».proof.Proof.Gen.ReferenceIdeal
import proofs.«165682_j13065290514484_1_alg».proof.Proof.Gen.Pre_finite_inputs
import proofs.«165682_j13065290514484_1_alg».proof.Proof.Gen.KernelIdeal.Value
import proofs.«165682_j13065290514484_1_alg».proof.Proof.Gen.ReferenceIdeal.Run
import proofs.«165682_j13065290514484_1_alg».proof.Proof.Gen.ReferenceIdeal.Read
import proofs.«165682_j13065290514484_1_alg».proof.Proof.KernelColumn
import proofs.«165682_j13065290514484_1_alg».proof.Proof.ReferenceColumn
import Idealize.ShloMosaic.Adequacy
import Idealize.ShloMosaic.Init

noncomputable section

namespace Cert.Proof

open Idealize.ShloMosaic Idealize.SL.Sem

/-- The kernel as printed runs, faults nowhere and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- So does the reference: its run, with what it says of the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Nothing of the kernel was rewritten to read it on the extended reals, so there is nothing to justify. -/
theorem preserves : Cert.preserves_Kernel_KernelIdeal := trivial

/-- From memories that agree on the four arguments both programs end with the column of scores of the rows of `x`
    against the bias, the weights, the factor table and its entrywise square: the kernel's result array by
    `KernelIdeal.Column.run`, the reference's last stage by `ReferenceIdeal.Column.stage_eq`. -/
theorem algebraic : Cert.algebraic_KernelIdeal_ReferenceIdeal := by
  intro m ρ m' ρ' _ hagree
  refine ⟨fun c => Cert.KernelIdeal.Column.result m c, Cert.KernelIdeal.Column.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v19_eq, Cert.ReferenceIdeal.Column.stage_eq,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
